-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S_ : Shape := ⟨0, ![]⟩

class Facts : Prop where
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  h_S_ : 0 < S_.numel
  bcast_S_S1x1x1x100x64 : S_.BroadcastsInDim S1x1x1x100x64 (![] : Fin 0 → Fin S1x1x1x100x64.rank)
  reducesTo_S1x1x1x100x64_S_d0_1_2_3_4 : S1x1x1x100x64.ReducesTo [0, 1, 2, 3, 4] S_
  bcast_S_S1x1x1x100 : S_.BroadcastsInDim S1x1x1x100 (![] : Fin 0 → Fin S1x1x1x100.rank)
  reducesTo_S1x1x1x100_S_d0_1_2_3 : S1x1x1x100.ReducesTo [0, 1, 2, 3] S_

variable [Facts]

def fn_part1 {F : FTy → Type} [FloatOps F] (main_v13 : IVec S_ 1) (main_v16 : IVec S1x1x1x100 1) : IVec S_ 1 :=
  let main_c_5 : IVec S_ 1 := constantI S_ 1 1#1
  let main_v17 : IVec S_ 1 := (fun x v => Host.reduce IntOp.andi x v reducesTo_S1x1x1x100_S_d0_1_2_3 h_S_) main_v16 main_c_5
  let main_v18 : IVec S_ 1 := andi main_v13 main_v17
  main_v18

def fn {F : FTy → Type} [FloatOps F] (main_arg0 : FVec F S128x16x16x64 .f32) (main_arg1 : FVec F S1x1x1x100x64 .f32) (main_arg2 : FVec F S1x1x1x100x64 .f32) (main_arg3 : FVec F S1x1x1x100 .f32) : IVec S_ 1 :=
  let main_v0 : FVec F S128x16x16x64 .f32 := Host.absf main_arg0
  let main_cst : FVec F S_ .f32 := constant S_ .f32 0x7F800000#32
  let main_v1 : FVec F S128x16x16x64 .f32 := broadcastInDim S128x16x16x64 ![] bcast_S_S128x16x16x64 main_cst
  let main_v2 : IVec S128x16x16x64 1 := cmpf .olt main_v0 main_v1
  let main_c : IVec S_ 1 := constantI S_ 1 1#1
  let main_v3 : IVec S_ 1 := (fun x v => Host.reduce IntOp.andi x v reducesTo_S128x16x16x64_S_d0_1_2_3 h_S_) main_v2 main_c
  let main_v4 : FVec F S1x1x1x100x64 .f32 := Host.absf main_arg1
  let main_cst_0 : FVec F S_ .f32 := constant S_ .f32 0x7F800000#32
  let main_v5 : FVec F S1x1x1x100x64 .f32 := broadcastInDim S1x1x1x100x64 ![] bcast_S_S1x1x1x100x64 main_cst_0
  let main_v6 : IVec S1x1x1x100x64 1 := cmpf .olt main_v4 main_v5
  let main_c_1 : IVec S_ 1 := constantI S_ 1 1#1
  let main_v7 : IVec S_ 1 := (fun x v => Host.reduce IntOp.andi x v reducesTo_S1x1x1x100x64_S_d0_1_2_3_4 h_S_) main_v6 main_c_1
  let main_v8 : IVec S_ 1 := andi main_v3 main_v7
  let main_v9 : FVec F S1x1x1x100x64 .f32 := Host.absf main_arg2
  let main_cst_2 : FVec F S_ .f32 := constant S_ .f32 0x7F800000#32
  let main_v10 : FVec F S1x1x1x100x64 .f32 := broadcastInDim S1x1x1x100x64 ![] bcast_S_S1x1x1x100x64 main_cst_2
  let main_v11 : IVec S1x1x1x100x64 1 := cmpf .olt main_v9 main_v10
  let main_c_3 : IVec S_ 1 := constantI S_ 1 1#1
  let main_v12 : IVec S_ 1 := (fun x v => Host.reduce IntOp.andi x v reducesTo_S1x1x1x100x64_S_d0_1_2_3_4 h_S_) main_v11 main_c_3
  let main_v13 : IVec S_ 1 := andi main_v8 main_v12
  let main_v14 : FVec F S1x1x1x100 .f32 := Host.absf main_arg3
  let main_cst_4 : FVec F S_ .f32 := constant S_ .f32 0x7F800000#32
  let main_v15 : FVec F S1x1x1x100 .f32 := broadcastInDim S1x1x1x100 ![] bcast_S_S1x1x1x100 main_cst_4
  let main_v16 : IVec S1x1x1x100 1 := cmpf .olt main_v14 main_v15
  fn_part1 (F := F) main_v13 main_v16
-- ==== Kernel.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S32768x64 : Shape := ⟨2, ![32768, 64]⟩
abbrev S100x64 : Shape := ⟨2, ![100, 64]⟩
abbrev S100 : Shape := ⟨1, ![100]⟩
abbrev S_ : Shape := ⟨0, ![]⟩
abbrev S1 : Shape := ⟨1, ![1]⟩
abbrev S64x100 : Shape := ⟨2, ![64, 100]⟩
abbrev S1x100 : Shape := ⟨2, ![1, 100]⟩
abbrev S32768x100 : Shape := ⟨2, ![32768, 100]⟩
abbrev S4096x64 : Shape := ⟨2, ![4096, 64]⟩
abbrev S4096x100 : Shape := ⟨2, ![4096, 100]⟩
abbrev S128x16x16x100 : Shape := ⟨4, ![128, 16, 16, 100]⟩

abbrev nBuf : Space → Nat
  | .hbm => 46
  | .vmem => 7
  | .smem => 0
  | _ => 0

abbrev bufTy : (tb : Table) → Fin (tcTables nBuf tb) → BufTy
  | .hbm, ⟨0, _⟩ => ⟨S128x16x16x64, .f32⟩
  | .hbm, ⟨1, _⟩ => ⟨S1x1x1x100x64, .f32⟩
  | .hbm, ⟨2, _⟩ => ⟨S1x1x1x100x64, .f32⟩
  | .hbm, ⟨3, _⟩ => ⟨S1x1x1x100, .f32⟩
  | .hbm, ⟨4, _⟩ => ⟨S32768x64, .f32⟩
  | .hbm, ⟨5, _⟩ => ⟨S100x64, .f32⟩
  | .hbm, ⟨6, _⟩ => ⟨S100x64, .f32⟩
  | .hbm, ⟨7, _⟩ => ⟨S100, .f32⟩
  | .hbm, ⟨8, _⟩ => ⟨S100x64, .f32⟩
  | .hbm, ⟨9, _⟩ => ⟨S100x64, .f32⟩
  | .hbm, ⟨10, _⟩ => ⟨S100x64, .f32⟩
  | .hbm, ⟨11, _⟩ => ⟨S100x64, .f32⟩
  | .hbm, ⟨12, _⟩ => ⟨S_, .f32⟩
  | .hbm, ⟨13, _⟩ => ⟨S100, .f32⟩
  | .hbm, ⟨14, _⟩ => ⟨S100x64, .f32⟩
  | .hbm, ⟨15, _⟩ => ⟨S_, .f32⟩
  | .hbm, ⟨16, _⟩ => ⟨S100, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S100, .f32⟩
  | .hbm, ⟨23, _⟩ => ⟨S100, .f32⟩
  | .hbm, ⟨24, _⟩ => ⟨S100, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S100, .f32⟩
  | .hbm, ⟨30, _⟩ => ⟨S100, .f32⟩
  | .hbm, ⟨31, _⟩ => ⟨S_, .f32⟩
  | .hbm, ⟨32, _⟩ => ⟨S100, .f32⟩
  | .hbm, ⟨33, _⟩ => ⟨S100, .f32⟩
  | .hbm, ⟨34, _⟩ => ⟨S100, .f32⟩
  | .hbm, ⟨35, _⟩ => ⟨S_, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S64x100, .f32⟩
  | .hbm, ⟨40, _⟩ => ⟨S64x100, .bf16⟩
  | .hbm, ⟨41, _⟩ => ⟨S64x100, .f32⟩
  | .hbm, ⟨42, _⟩ => ⟨S64x100, .bf16⟩
  | .hbm, ⟨43, _⟩ => ⟨S1x100, .f32⟩
  | .hbm, ⟨44, _⟩ => ⟨S32768x100, .f32⟩
  | .hbm, ⟨45, _⟩ => ⟨S128x16x16x100, .f32⟩
  | .local _ .vmem, ⟨0, _⟩ => ⟨S4096x64, .f32⟩
  | .local _ .vmem, ⟨1, _⟩ => ⟨S4096x64, .f32⟩
  | .local _ .vmem, ⟨2, _⟩ => ⟨S64x100, .bf16⟩
  | .local _ .vmem, ⟨3, _⟩ => ⟨S64x100, .bf16⟩
  | .local _ .vmem, ⟨4, _⟩ => ⟨S1x100, .f32⟩
  | .local _ .vmem, ⟨5, _⟩ => ⟨S4096x100, .f32⟩
  | .local _ .vmem, ⟨6, _⟩ => ⟨S4096x100, .f32⟩
  | _, _ => ⟨S128x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x16x16x64_S32768x64 : S128x16x16x64.ShapeCasts S32768x64
  shapeCasts_S1x1x1x100x64_S100x64 : S1x1x1x100x64.ShapeCasts S100x64
  shapeCasts_S1x1x1x100_S100 : S1x1x1x100.ShapeCasts S100
  reducesTo_S100x64_S100_d1 : S100x64.ReducesTo [1] S100
  h_S_ : 0 < S_.numel
  reducesTo_S100_S_d0 : S100.ReducesTo [0] S_
  bcast_S_S1 : S_.BroadcastsInDim S1 (![] : Fin 0 → Fin S1.rank)
  bcast_S1_S100_0 : S1.BroadcastsInDim S100 (![0] : Fin 1 → Fin S100.rank)
  bcast_S_S100 : S_.BroadcastsInDim S100 (![] : Fin 0 → Fin S100.rank)
  transposes_S100x64_S64x100_1_0 : S100x64.Transposes [1, 0] S64x100
  bitsLt_bf16_f32 : FTy.bits .bf16 < FTy.bits .f32
  shapeCasts_S100_S1x100 : S100.ShapeCasts S1x100
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4096x100 : S1x100.Broadcasts S4096x100
  inb_S4096x100_S4096x100_0_0 : ∀ a, (![0, 0] : Fin 2 → Nat) a + S4096x100.size a ≤ S4096x100.size a
  h_S4096x100 : 0 < S4096x100.numel
  shapeCasts_S32768x100_S128x16x16x100 : S32768x100.ShapeCasts S128x16x16x100
  dot_S4096x64_S64x100_S4096x100_1_0_0_1_n_n_wf : DotDims.WF S4096x64 S64x100 S4096x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S32768x64.size a
  hwx0_0 : ∀ i : grid0.Coords, EltTy.bits .f32 = 32 ∨ (Rect.block (s := S32768x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .bf16 = 32 ∨ (Rect.block (s := S64x100) S64x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x100.size a ≤ S64x100.size a
  hwx0_2 : ∀ i : grid0.Coords, EltTy.bits .bf16 = 32 ∨ (Rect.block (s := S64x100) S64x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x100.size a ≤ S32768x100.size a
  hwx0_4 : ∀ i : grid0.Coords, EltTy.bits .f32 = 32 ∨ (Rect.block (s := S32768x100) S4096x100.size (cc0_transform_4 i) (hinb0_4 i)).WholeWords (EltTy.packing .f32)

variable [Facts₀]

def dot_S4096x64_S64x100_S4096x100_1_0_0_1_n_n : DotDims S4096x64 S64x100 S4096x100 where
  lhsContracting := [1]
  rhsContracting := [0]
  lhsNonContracting := [0]
  rhsNonContracting := [1]
  lhsBatch := []
  rhsBatch := []
  wf := dot_S4096x64_S64x100_S4096x100_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4096x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S_ : Shape := ⟨0, ![]⟩
abbrev S1x1x1 : Shape := ⟨3, ![1, 1, 1]⟩
abbrev S1x1x1x1 : Shape := ⟨4, ![1, 1, 1, 1]⟩
abbrev S128x16x16x1x64 : Shape := ⟨5, ![128, 16, 16, 1, 64]⟩
abbrev S128x16x16x100x64 : Shape := ⟨5, ![128, 16, 16, 100, 64]⟩
abbrev S128x16x16x100 : Shape := ⟨4, ![128, 16, 16, 100]⟩

abbrev nBuf : Space → Nat
  | .hbm => 42
  | .vmem => 0
  | .smem => 0
  | _ => 0

abbrev bufTy : (tb : Table) → Fin (tcTables nBuf tb) → BufTy
  | .hbm, ⟨0, _⟩ => ⟨S128x16x16x64, .f32⟩
  | .hbm, ⟨1, _⟩ => ⟨S1x1x1x100x64, .f32⟩
  | .hbm, ⟨2, _⟩ => ⟨S1x1x1x100x64, .f32⟩
  | .hbm, ⟨3, _⟩ => ⟨S1x1x1x100, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S1x1x1x1, .f32⟩
  | .hbm, ⟨10, _⟩ => ⟨S1x1x1x100, .f32⟩
  | .hbm, ⟨11, _⟩ => ⟨S1x1x1x100, .f32⟩
  | .hbm, ⟨12, _⟩ => ⟨S1x1x1x100, .f32⟩
  | .hbm, ⟨13, _⟩ => ⟨S_, .f32⟩
  | .hbm, ⟨14, _⟩ => ⟨S1x1x1, .f32⟩
  | .hbm, ⟨15, _⟩ => ⟨S1x1x1x1, .f32⟩
  | .hbm, ⟨16, _⟩ => ⟨S1x1x1x1, .f32⟩
  | .hbm, ⟨17, _⟩ => ⟨S1x1x1x100, .f32⟩
  | .hbm, ⟨18, _⟩ => ⟨S1x1x1x100, .f32⟩
  | .hbm, ⟨19, _⟩ => ⟨S128x16x16x1x64, .f32⟩
  | .hbm, ⟨20, _⟩ => ⟨S128x16x16x100x64, .f32⟩
  | .hbm, ⟨21, _⟩ => ⟨S128x16x16x100x64, .f32⟩
  | .hbm, ⟨22, _⟩ => ⟨S128x16x16x100x64, .f32⟩
  | .hbm, ⟨23, _⟩ => ⟨S128x16x16x100x64, .f32⟩
  | .hbm, ⟨24, _⟩ => ⟨S1x1x1x100x64, .f32⟩
  | .hbm, ⟨25, _⟩ => ⟨S128x16x16x100x64, .f32⟩
  | .hbm, ⟨26, _⟩ => ⟨S128x16x16x100x64, .f32⟩
  | .hbm, ⟨27, _⟩ => ⟨S_, .f32⟩
  | .hbm, ⟨28, _⟩ => ⟨S128x16x16x100, .f32⟩
  | .hbm, ⟨29, _⟩ => ⟨S_, .f32⟩
  | .hbm, ⟨30, _⟩ => ⟨S128x16x16x100, .f32⟩
  | .hbm, ⟨31, _⟩ => ⟨S128x16x16x100, .f32⟩
  | .hbm, ⟨32, _⟩ => ⟨S1x1x1x100x64, .f32⟩
  | .hbm, ⟨33, _⟩ => ⟨S_, .f32⟩
  | .hbm, ⟨34, _⟩ => ⟨S1x1x1x100, .f32⟩
  | .hbm, ⟨35, _⟩ => ⟨S_, .f32⟩
  | .hbm, ⟨36, _⟩ => ⟨S1x1x1x100, .f32⟩
  | .hbm, ⟨37, _⟩ => ⟨S1x1x1x100, .f32⟩
  | .hbm, ⟨38, _⟩ => ⟨S128x16x16x100, .f32⟩
  | .hbm, ⟨39, _⟩ => ⟨S128x16x16x100, .f32⟩
  | .hbm, ⟨40, _⟩ => ⟨S128x16x16x100, .f32⟩
  | .hbm, ⟨41, _⟩ => ⟨S128x16x16x100, .f32⟩
  | _, _ => ⟨S128x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]

class Facts₀ : Prop where
  reducesTo_S1x1x1x100_S1x1x1_d3 : S1x1x1x100.ReducesTo [3] S1x1x1
  h_S_ : 0 < S_.numel
  bcast_S_S1x1x1 : S_.BroadcastsInDim S1x1x1 (![] : Fin 0 → Fin S1x1x1.rank)
  bcast_S1x1x1_S1x1x1x1_0_1_2 : S1x1x1.BroadcastsInDim S1x1x1x1 (![0, 1, 2] : Fin 3 → Fin S1x1x1x1.rank)
  bcast_S1x1x1x1_S1x1x1x100_0_1_2_3 : S1x1x1x1.BroadcastsInDim S1x1x1x100 (![0, 1, 2, 3] : Fin 4 → Fin S1x1x1x100.rank)
  bcast_S128x16x16x64_S128x16x16x1x64_0_1_2_4 : S128x16x16x64.BroadcastsInDim S128x16x16x1x64 (![0, 1, 2, 4] : Fin 4 → Fin S128x16x16x1x64.rank)
  bcast_S128x16x16x1x64_S128x16x16x100x64_0_1_2_3_4 : S128x16x16x1x64.BroadcastsInDim S128x16x16x100x64 (![0, 1, 2, 3, 4] : Fin 5 → Fin S128x16x16x100x64.rank)
  bcast_S1x1x1x100x64_S128x16x16x100x64_0_1_2_3_4 : S1x1x1x100x64.BroadcastsInDim S128x16x16x100x64 (![0, 1, 2, 3, 4] : Fin 5 → Fin S128x16x16x100x64.rank)
  reducesTo_S128x16x16x100x64_S128x16x16x100_d4 : S128x16x16x100x64.ReducesTo [4] S128x16x16x100
  bcast_S_S128x16x16x100 : S_.BroadcastsInDim S128x16x16x100 (![] : Fin 0 → Fin S128x16x16x100.rank)
  reducesTo_S1x1x1x100x64_S1x1x1x100_d4 : S1x1x1x100x64.ReducesTo [4] S1x1x1x100
  bcast_S_S1x1x1x100 : S_.BroadcastsInDim S1x1x1x100 (![] : Fin 0 → Fin S1x1x1x100.rank)
  bcast_S1x1x1x100_S128x16x16x100_0_1_2_3 : S1x1x1x100.BroadcastsInDim S128x16x16x100 (![0, 1, 2, 3] : Fin 4 → Fin S128x16x16x100.rank)

variable [Facts₀]

class Facts : Prop extends Facts₀ where

variable [Facts]
-- ==== Proof.Spec.lean ====
/-
  The score of a diagonal Gaussian mixture layer, as a function of its four arrays, in two arrangements.

  For a pixel (b, h, w) with feature vector x, and a component k with centre mu_k, square-root precisions sg_k and an
  unnormalised weight, the score is

      C + sum_c log sg_kc  -  1/2 * sum_c (x_c - mu_kc)^2 * sg_kc^2  +  log-softmax(weights)_k .

  The direct arrangement (refScore) sums the squared distance as written. The split arrangement (kerScore) expands the
  square:  (x - mu)^2 s^2 = x^2 s^2 - 2 x (mu s^2) + mu^2 s^2, so that the distance is two inner products of rows of x
  with per-component vectors, plus a per-component constant folded into a bias. On finite numbers the two agree
  (kerScore_eq_refScore); the expansion is a distributive law, which the extended reals only have away from the
  infinities, so the entries of x, mu and sg are taken to be reals. The weights, the constant C, the sums of logarithms
  and the log-softmax are the same extended real on both sides and are never opened.
-/
import Idealize.ShloMosaic.PureOps.Ideal.Laws
import Idealize.ShloMosaic.Lib.ValueIdx

noncomputable section

open scoped BigOperators

namespace GmmScore

open Idealize.ShloMosaic Idealize.ShloMosaic.ValueIdx

/-- The features: 128 images of 16 x 16 pixels, 64 features each. -/
abbrev SX : Shape := ⟨4, ![128, 16, 16, 64]⟩
/-- The centres and the square-root precisions: 100 components of 64 features, under three unit axes. -/
abbrev SM : Shape := ⟨5, ![1, 1, 1, 100, 64]⟩
/-- The unnormalised weights: 100 components, under three unit axes. -/
abbrev SP : Shape := ⟨4, ![1, 1, 1, 100]⟩

/-- The additive constant -(64/2) log(2 pi), as the float both programs carry. -/
abbrev cst : EReal := Ideal.ofBits .f32 0xC26B3F8E#32
/-- The float -1/2. -/
abbrev negHalf : EReal := Ideal.ofBits .f32 0xBF000000#32
/-- The float 1/2. -/
abbrev half : EReal := Ideal.ofBits .f32 0x3F000000#32
/-- The float -infinity, from which a maximum is folded. -/
abbrev negInf : EReal := Ideal.ofBits .f32 0xFF800000#32
/-- The float zero, from which a sum is started. -/
abbrev zero : EReal := Ideal.ofBits .f32 0x00000000#32

/-- The largest weight (folded from -infinity, and once more compared with -infinity). -/
def topWeight (pis : SP.Idx → EReal) : EReal :=
  max negInf ((Finset.univ : Finset (Fin 100)).fold max negInf (fun j => pis (ix4 0 0 0 j)))

/-- The log-softmax of the weights at component k: (p_k - top) - log (sum_j exp (p_j - top)). -/
def logWeight (pis : SP.Idx → EReal) (k : Fin 100) : EReal :=
  (pis (ix4 0 0 0 k) - topWeight pis) - Ideal.log (zero + ∑ j : Fin 100, Ideal.exp (pis (ix4 0 0 0 j) - topWeight pis))

/-- The sum of the logarithms of component k's square-root precisions. -/
def logDet (sg : SM.Idx → EReal) (k : Fin 100) : EReal :=
  zero + ∑ c : Fin 64, Ideal.log (sg (ix5 0 0 0 k c))

/-- The score, the squared distance summed as written. -/
def refScore (x : SX.Idx → EReal) (mu sg : SM.Idx → EReal) (pis : SP.Idx → EReal) (b : Fin 128) (h w : Fin 16) (k : Fin 100) : EReal :=
  ((cst + logDet sg k)
      + negHalf * (zero + ∑ c : Fin 64, ((x (ix4 b h w c) - mu (ix5 0 0 0 k c)) * (x (ix4 b h w c) - mu (ix5 0 0 0 k c)))
          * (sg (ix5 0 0 0 k c) * sg (ix5 0 0 0 k c))))
    + logWeight pis k

/-- The per-component bias of the split arrangement: everything that does not depend on the pixel. -/
def kerBias (mu sg : SM.Idx → EReal) (pis : SP.Idx → EReal) (k : Fin 100) : EReal :=
  ((cst + logDet sg k) + logWeight pis k)
    - half * (zero + ∑ c : Fin 64, (mu (ix5 0 0 0 k c) * mu (ix5 0 0 0 k c)) * (sg (ix5 0 0 0 k c) * sg (ix5 0 0 0 k c)))

/-- The score, the square expanded: the bias, minus half the inner product of x^2 with sg_k^2, plus the inner product
    of x with mu_k sg_k^2. -/
def kerScore (x : SX.Idx → EReal) (mu sg : SM.Idx → EReal) (pis : SP.Idx → EReal) (b : Fin 128) (h w : Fin 16) (k : Fin 100) : EReal :=
  (kerBias mu sg pis k
      + negHalf * ∑ c : Fin 64, (x (ix4 b h w c) * x (ix4 b h w c)) * (sg (ix5 0 0 0 k c) * sg (ix5 0 0 0 k c)))
    + ∑ c : Fin 64, x (ix4 b h w c) * (mu (ix5 0 0 0 k c) * (sg (ix5 0 0 0 k c) * sg (ix5 0 0 0 k c)))

/-! ## The two arrangements agree on finite entries -/

/-- A finite sum of reals, read in the extended reals, is the sum of the readings. -/
theorem coe_sum {n : ℕ} (f : Fin n → ℝ) : ∑ c : Fin n, ((f c : ℝ) : EReal) = ((∑ c : Fin n, f c : ℝ) : EReal) := by
  refine Finset.induction_on (Finset.univ : Finset (Fin n)) (by simp) ?_
  intro a s ha ih
  rw [Finset.sum_insert ha, Finset.sum_insert ha, ih, EReal.coe_add]

theorem half_eq : half = (((1 : ℝ) / 2 : ℝ) : EReal) := by
  simp [Ideal.ofBits, Ideal.ieee, -EReal.coe_mul]; norm_num

theorem negHalf_eq : negHalf = ((-((1 : ℝ) / 2) : ℝ) : EReal) := by
  simp [Ideal.ofBits, Ideal.ieee, -EReal.coe_mul, -EReal.coe_neg]; norm_num

/-- Expanding the square under the sum, over the reals. -/
theorem expand_real (xs ms ss : Fin 64 → ℝ) :
    -((1 : ℝ) / 2 * ∑ c, (ms c * ms c) * (ss c * ss c))
        + -((1 : ℝ) / 2) * ∑ c, (xs c * xs c) * (ss c * ss c) + ∑ c, xs c * (ms c * (ss c * ss c))
      = -((1 : ℝ) / 2) * ∑ c, ((xs c - ms c) * (xs c - ms c)) * (ss c * ss c) := by
  rw [Finset.mul_sum, Finset.mul_sum, Finset.mul_sum, ← Finset.sum_neg_distrib, ← Finset.sum_add_distrib,
    ← Finset.sum_add_distrib]
  exact Finset.sum_congr rfl fun c _ => by ring

/-- The same with the pixel-independent part A and the log-weight P any extended reals: sums of extended reals
    commute and associate, and the three real terms of the split arrangement add up to the direct one. -/
theorem split_law (A P : EReal) (xs ms ss : Fin 64 → ℝ) :
    (((A + P) - half * (zero + ∑ c, ((ms c : EReal) * (ms c : EReal)) * ((ss c : EReal) * (ss c : EReal))))
        + negHalf * ∑ c, ((xs c : EReal) * (xs c : EReal)) * ((ss c : EReal) * (ss c : EReal)))
      + ∑ c, (xs c : EReal) * ((ms c : EReal) * ((ss c : EReal) * (ss c : EReal)))
    = (A + negHalf * (zero + ∑ c, (((xs c : EReal) - (ms c : EReal)) * ((xs c : EReal) - (ms c : EReal)))
          * ((ss c : EReal) * (ss c : EReal)))) + P := by
  have hz : zero = 0 := Ideal.ofBits_zero_f32
  rw [hz, zero_add, zero_add, half_eq, negHalf_eq]
  simp only [← EReal.coe_mul, ← EReal.coe_sub, coe_sum]
  rw [sub_eq_add_neg, ← EReal.coe_neg, add_assoc (A + P), add_assoc (A + P), ← EReal.coe_add, ← EReal.coe_add,
    expand_real, add_assoc A P, add_assoc A, add_comm P]

theorem kerScore_eq_refScore (x : SX.Idx → EReal) (mu sg : SM.Idx → EReal) (pis : SP.Idx → EReal)
    (hx : ∀ i, ∃ r : ℝ, x i = (r : EReal)) (hmu : ∀ i, ∃ r : ℝ, mu i = (r : EReal)) (hsg : ∀ i, ∃ r : ℝ, sg i = (r : EReal))
    (b : Fin 128) (h w : Fin 16) (k : Fin 100) :
    kerScore x mu sg pis b h w k = refScore x mu sg pis b h w k := by
  choose xr hxr using hx
  choose mr hmr using hmu
  choose sr hsr using hsg
  unfold kerScore kerBias refScore
  simp only [hxr, hmr, hsr]
  exact split_law (cst + logDet sg k) (logWeight pis k) (fun c => xr (ix4 b h w c))
    (fun c => mr (ix5 0 0 0 k c)) (fun c => sr (ix5 0 0 0 k c))

end GmmScore

end
-- ==== Proof.Payload.lean ====
/-
  The kernel body's stored value, read at an index.

  On a block of 4096 rows the body computes, for row p and component q,

      bias_q  +  (-1/2) * sum_f (x_pf * x_pf) * S_fq  +  sum_f x_pf * M_fq ,

  where x is the block of feature rows, S and M are the two [64, 100] operands and bias is the [1, 100] row. The two
  sums are the matrix unit's products into a zero accumulator; narrowing the operands to a shorter float format is the
  identity on extended reals.
-/
import proofs.«109110_j29996051595916_1_alg».proof.Proof.Gen.KernelIdeal.Skeleton
import proofs.«109110_j29996051595916_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The product of a [4096, 64] block with a [64, 100] operand -/

/-- Row coordinate of the left operand: the output's row. -/
theorem lhs_0 (i : S4096x100.Idx) (q : dot_S4096x64_S64x100_S4096x100_1_0_0_1_n_n.contr.Idx) :
    (dot_S4096x64_S64x100_S4096x100_1_0_0_1_n_n.lhsIdx i q 0).val = (i 0).val := by
  unfold DotDims.lhsIdx
  rw [dif_neg (show ¬(0 : Fin S4096x64.rank) ∈ dot_S4096x64_S64x100_S4096x100_1_0_0_1_n_n.lhsBatch by decide),
    dif_pos (show (0 : Fin S4096x64.rank) ∈ dot_S4096x64_S64x100_S4096x100_1_0_0_1_n_n.lhsNonContracting by decide)]
  rfl

/-- Column coordinate of the left operand: the summation index. -/
theorem lhs_1 (i : S4096x100.Idx) (q : dot_S4096x64_S64x100_S4096x100_1_0_0_1_n_n.contr.Idx) :
    (dot_S4096x64_S64x100_S4096x100_1_0_0_1_n_n.lhsIdx i q 1).val = (q ⟨0, by decide⟩).val :=
  dot_S4096x64_S64x100_S4096x100_1_0_0_1_n_n.lhsIdx_val_of_single rfl i q

/-- Row coordinate of the right operand: the summation index. -/
theorem rhs_0 (i : S4096x100.Idx) (q : dot_S4096x64_S64x100_S4096x100_1_0_0_1_n_n.contr.Idx) :
    (dot_S4096x64_S64x100_S4096x100_1_0_0_1_n_n.rhsIdx i q 0).val = (q ⟨0, by decide⟩).val :=
  dot_S4096x64_S64x100_S4096x100_1_0_0_1_n_n.rhsIdx_val_of_single rfl i q

/-- Column coordinate of the right operand: the output's column. -/
theorem rhs_1 (i : S4096x100.Idx) (q : dot_S4096x64_S64x100_S4096x100_1_0_0_1_n_n.contr.Idx) :
    (dot_S4096x64_S64x100_S4096x100_1_0_0_1_n_n.rhsIdx i q 1).val = (i 1).val := by
  unfold DotDims.rhsIdx
  rw [dif_neg (show ¬(1 : Fin S64x100.rank) ∈ dot_S4096x64_S64x100_S4096x100_1_0_0_1_n_n.rhsBatch by decide),
    dif_pos (show (1 : Fin S64x100.rank) ∈ dot_S4096x64_S64x100_S4096x100_1_0_0_1_n_n.rhsNonContracting by decide)]
  rfl

/-- The product into a zero accumulator, at (p, q): the sum over the 64 features of the entries' products. -/
theorem rowsTimes_apply {φ₁ φ₂ : FTy} (A : FVec Ideal S4096x64 φ₁) (B : FVec Ideal S64x100 φ₂) (p : Fin 4096) (q : Fin 100) :
    matmul dot_S4096x64_S64x100_S4096x100_1_0_0_1_n_n none A B (constant S4096x100 .f32 0x00000000#32) (ix2 p q)
      = ∑ f : Fin 64, A (ix2 p f) * B (ix2 f q) := by
  refine (Ideal.matmul_constant_zero_apply dot_S4096x64_S64x100_S4096x100_1_0_0_1_n_n none A B (ix2 p q)).trans ?_
  rw [← Equiv.sum_comp (contrEquiv1 dot_S4096x64_S64x100_S4096x100_1_0_0_1_n_n 64 rfl rfl).symm]
  refine Finset.sum_congr rfl fun k _ => ?_
  have hk := contrEquiv1_symm_val dot_S4096x64_S64x100_S4096x100_1_0_0_1_n_n 64 rfl rfl k
  have el : dot_S4096x64_S64x100_S4096x100_1_0_0_1_n_n.lhsIdx (ix2 p q)
      ((contrEquiv1 dot_S4096x64_S64x100_S4096x100_1_0_0_1_n_n 64 rfl rfl).symm k) = ix2 p k := funext fun a => Fin.ext (by
    match a with
    | ⟨0, _⟩ => exact lhs_0 _ _
    | ⟨1, _⟩ => exact (lhs_1 _ _).trans hk)
  have er : dot_S4096x64_S64x100_S4096x100_1_0_0_1_n_n.rhsIdx (ix2 p q)
      ((contrEquiv1 dot_S4096x64_S64x100_S4096x100_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The stored value -/

/-- The body's stored value at row p, component q. -/
theorem stored_apply (x : Vec Ideal S4096x64 .f32) (S M : Vec Ideal S64x100 .bf16) (bias : Vec Ideal S1x100 .f32)
    (p : Fin 4096) (q : Fin 100) :
    k0_pay1 (F := Ideal) x S M bias (ix2 p q)
      = (bias (ix2 (0 : Fin 1) q) + GmmScore.negHalf * ∑ f : Fin 64, (x (ix2 p f) * x (ix2 p f)) * S (ix2 f q))
          + ∑ f : Fin 64, x (ix2 p f) * M (ix2 f q) := by
  unfold k0_pay1
  simp only [shapeCast_self]
  rw [addf_apply, addf_apply, mulf_apply, broadcast_apply, rowsTimes_apply, rowsTimes_apply, broadcastTo_1b_ab_apply]
  rfl

end Cert.KernelIdeal.Payload

end
-- ==== Proof.Blocks.lean ====
/-
  The [32768, 100] array after the kernel region.

  The region runs the body at 8 points; point t stages rows 4096 t … 4096 t + 4095 of the feature matrix, the two
  [64, 100] operands and the bias row whole, and writes back rows 4096 t … of the result. What it writes back is the
  corresponding block of ONE function of the four operand arrays (scores), and the 8 blocks cover the array, so the
  array ends holding that function.
-/
import proofs.«109110_j29996051595916_1_alg».proof.Proof.Gen.KernelIdeal.Frame
import proofs.«109110_j29996051595916_1_alg».proof.Proof.Payload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The result matrix as a function of the four operand arrays: at row r, component q, the bias at q, minus half the
    inner product of row r's squares with column q of S, plus the inner product of row r with column q of M. -/
def scores (X : Vec Ideal S32768x64 .f32) (S M : Vec Ideal S64x100 .bf16) (bias : Vec Ideal S1x100 .f32) :
    Vec Ideal S32768x100 .f32 := fun i =>
  (bias (ix2 (0 : Fin 1) (i 1)) + GmmScore.negHalf * ∑ f : Fin 64, (X (ix2 (i 0) f) * X (ix2 (i 0) f)) * S (ix2 f (i 1)))
    + ∑ f : Fin 64, X (ix2 (i 0) f) * M (ix2 f (i 1))

/-- One entry of a block: if the staged rows are the array's rows at the block's place and the other three operands are
    staged whole, the body's stored value at (p, q) is the result matrix's entry at the block's row and column q. -/
theorem block_entry (X : Vec Ideal S32768x64 .f32) (S M : Vec Ideal S64x100 .bf16) (bias : Vec Ideal S1x100 .f32)
    (x : Vec Ideal S4096x64 .f32) (s mm : Vec Ideal S64x100 .bf16) (bb : Vec Ideal S1x100 .f32)
    (y : S4096x100.Idx) (i : S32768x100.Idx)
    (hx : ∀ f : Fin 64, x (ix2 (y 0) f) = X (ix2 (i 0) f)) (hs : s = S) (hm : mm = M) (hb : bb = bias) (h1 : y 1 = i 1) :
    k0_pay1 (F := Ideal) x s mm bb y = scores X S M bias i := by
  subst hs hm hb
  obtain ⟨p, q, rfl⟩ : ∃ (p : Fin 4096) (q : Fin 100), y = ix2 p q := ⟨y 0, y 1, eq_ix2 y⟩
  rw [Payload.stored_apply]
  unfold scores
  have hq : q = i 1 := h1
  subst hq
  have hx' : ∀ f : Fin 64, x (ix2 p f) = X (ix2 (i 0) f) := hx
  simp only [hx']

variable (m : (ℓ : Loc nD τ sig) → Buf (Elt Ideal) ℓ)

theorem hz : (![0, 0] : Fin 2 → Nat) = fun _ => 0 := funext fun a => by fin_cases a <;> rfl

/-- The printed index maps over the 8 points: the feature window and the result window are at block row t, every
    other block index is 0. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the result matrix of the operand arrays as the region finds them. -/
theorem flushed_eq (c : Dev nD) (t : Fin cfg0.N) :
    (dats m 0 c).flushed 4 t
      = ((cfg0.win 4).blk t).view.read (Elt Ideal) (scores (V m c main_v0) (V m c main_v19) (V m c main_v21) (V m c main_v22)) := by
  show (cfg0.win 4).cut (grid0.coords t) ((dats m 0 c).after 4 t) = _
  rw [after0_4]
  unfold out0_4
  rw [View.canon_unit_zero hz]
  simp only [View.ld_unit_zero (S := S4096x64) hz, View.ld_unit_zero (S := S64x100) hz, View.ld_unit_zero (S := S1x100) hz]
  obtain ⟨e00, e01, e10, e11, e20, e21, e30, e31, e40, e41⟩ := idx_facts t
  funext j
  show k0_pay1 (F := Ideal) (iblk m c 0 t) (iblk m c 1 t) (iblk m c 2 t) (iblk m c 3 t) j
    = scores (V m c main_v0) (V m c main_v19) (V m c main_v21) (V m c main_v22) (((cfg0.win 4).blk t).view.emb j)
  refine block_entry (V m c main_v0) (V m c main_v19) (V m c main_v21) (V m c main_v22)
    (iblk m c 0 t) (iblk m c 1 t) (iblk m c 2 t) (iblk m c 3 t) j _ (fun f => ?_) ?_ ?_ ?_ ?_
  · show V m c main_v0 (((cfg0.win 0).blk t).view.emb (ix2 (j 0) f))
      = V m c main_v0 (ix2 ((((cfg0.win 4).blk t).view.emb j) 0) f)
    refine congrArg _ (funext fun a => Fin.ext ?_)
    match a with
    | ⟨0, _⟩ =>
      show win0_0.index t (0 : Fin 2) * 4096 + 1 * (j 0).val = win0_4.index t (0 : Fin 2) * 4096 + 1 * (j 0).val
      omega
    | ⟨1, _⟩ =>
      show win0_0.index t (1 : Fin 2) * 64 + 1 * f.val = f.val
      omega
  · funext y
    show V m c main_v19 (((cfg0.win 1).blk t).view.emb y) = V m c main_v19 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 100 + 1 * (y 1).val = (y 1).val; omega
  · funext y
    show V m c main_v21 (((cfg0.win 2).blk t).view.emb y) = V m c main_v21 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 100 + 1 * (y 1).val = (y 1).val; omega
  · funext y
    show V m c main_v22 (((cfg0.win 3).blk t).view.emb y) = V m c main_v22 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 100 + 1 * (y 1).val = (y 1).val; omega
  · apply Fin.ext
    show (j 1).val = win0_4.index t (1 : Fin 2) * 100 + 1 * (j 1).val
    omega

/-- An index of the result matrix is in point t's block iff each coordinate is in the block's range on its axis. -/
theorem mem_blk (t : Fin cfg0.N) (i : S32768x100.Idx) :
    i ∈ ((cfg0.win 4).blk t).view.set ↔ ∀ a : Fin 2, win0_4.index t a * S4096x100.size a ≤ (i a).val
      ∧ (i a).val < win0_4.index t a * S4096x100.size a + S4096x100.size a := by
  show i ∈ ((View.whole main_v23).slice (win0_4.rect t)).set ↔ _
  rw [View.set_slice_whole, Rect.mem_set_unit]
  exact Iff.rfl

/-- Row r of the result matrix is written back by point r / 4096. -/
theorem cover (i : S32768x100.Idx) :
    ∃ t : Fin cfg0.N, (cfg0.win 4).flush t = true ∧ i ∈ ((cfg0.win 4).blk t).view.set := by
  have hi0 : (i 0).val < 32768 := (i 0).isLt
  have hi1 : (i 1).val < 100 := (i 1).isLt
  have hN : cfg0.N = 8 := N_0
  have ht : (i 0).val / 4096 < cfg0.N := by rw [hN]; omega
  refine ⟨⟨(i 0).val / 4096, ht⟩, flush0_4 _, ?_⟩
  rw [mem_blk]
  obtain ⟨-, -, -, -, -, -, -, -, e40, e41⟩ := idx_facts ⟨(i 0).val / 4096, ht⟩
  intro a
  match a with
  | ⟨0, _⟩ =>
    show win0_4.index ⟨(i 0).val / 4096, ht⟩ (0 : Fin 2) * 4096 ≤ (i 0).val
      ∧ (i 0).val < win0_4.index ⟨(i 0).val / 4096, ht⟩ (0 : Fin 2) * 4096 + 4096
    rw [e40]
    show (i 0).val / 4096 * 4096 ≤ (i 0).val ∧ (i 0).val < (i 0).val / 4096 * 4096 + 4096
    omega
  | ⟨1, _⟩ =>
    show win0_4.index ⟨(i 0).val / 4096, ht⟩ (1 : Fin 2) * 100 ≤ (i 1).val
      ∧ (i 1).val < win0_4.index ⟨(i 0).val / 4096, ht⟩ (1 : Fin 2) * 100 + 100
    rw [e41]
    omega

/-- The result matrix after the region: the scores of the four operand arrays as the region finds them. -/
theorem final (c : Dev nD) :
    (dats m 0 c).arrAt 4 cfg0.N = scores (V m c main_v0) (V m c main_v19) (V m c main_v21) (V m c main_v22) :=
  (dats m 0 c).arrAt_eq_of_cover 4 _ (fun t _ => flushed_eq m c t) (cover)

end Cert.KernelIdeal.Blocks

end
-- ==== Proof.Tail.lean ====
/-
  From the result matrix to the program's result.

  After the region the [32768, 100] result matrix holds the scores of the four operand arrays; the one host operation
  that follows reshapes it to [128, 16, 16, 100], so that entry (b, h, w, k) is the matrix's entry at row
  b * 256 + h * 16 + w and column k. If, at that row and column, the four operand arrays read as the flattened
  features, the squared precisions, the centres times the squared precisions and the bias of component k, the entry
  is the split arrangement of the score.
-/
import proofs.«109110_j29996051595916_1_alg».proof.Proof.Gen.KernelIdeal.Frame
import proofs.«109110_j29996051595916_1_alg».proof.Proof.Blocks
import Idealize.ShloMosaic.Lib.StableHlo.Run
import Idealize.ShloMosaic.Lib.Pipeline.Value

set_option maxRecDepth 16384

noncomputable section

open scoped BigOperators

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo

/-- Splitting the rows of a [32768, 100] matrix into [128, 16, 16]: entry (b, h, w, k) is the matrix's entry at row
    n = b * 256 + h * 16 + w, both at row-major position n * 100 + k. -/
theorem splitRows_apply (G : Vec Ideal S32768x100 .f32) (b : Fin 128) (h w : Fin 16) (k : Fin 100) (n : Fin 32768)
    (hn : n.val = b.val * 256 + h.val * 16 + w.val) :
    shapeCast S128x16x16x100 G shapeCasts_S32768x100_S128x16x16x100 (ix4 b h w k) = G (ix2 n k) :=
  shapeCast_apply G _ _ _ (by
    rw [Shape.rowMajor_val_two, Shape.rowMajor_val_four]
    show n.val * 100 + k.val = ((b.val * 16 + h.val) * 16 + w.val) * 100 + k.val
    omega)

/-- The result matrix at row n, column k, when the operand arrays read there as the program's arguments do at pixel
    (b, h, w) and component k: the split arrangement of the score. -/
theorem scores_apply (X : Vec Ideal S32768x64 .f32) (S M : Vec Ideal S64x100 .bf16) (bias : Vec Ideal S1x100 .f32)
    (x : GmmScore.SX.Idx → EReal) (mu sg : GmmScore.SM.Idx → EReal) (pis : GmmScore.SP.Idx → EReal)
    (b : Fin 128) (h w : Fin 16) (k : Fin 100) (n : Fin 32768)
    (hX : ∀ f : Fin 64, X (ix2 n f) = x (ix4 b h w f))
    (hS : ∀ f : Fin 64, S (ix2 f k) = sg (ix5 0 0 0 k f) * sg (ix5 0 0 0 k f))
    (hM : ∀ f : Fin 64, M (ix2 f k) = mu (ix5 0 0 0 k f) * (sg (ix5 0 0 0 k f) * sg (ix5 0 0 0 k f)))
    (hb : bias (ix2 (0 : Fin 1) k) = GmmScore.kerBias mu sg pis k) :
    Blocks.scores X S M bias (ix2 n k) = GmmScore.kerScore x mu sg pis b h w k := by
  unfold Blocks.scores GmmScore.kerScore
  show (bias (ix2 (0 : Fin 1) k) + GmmScore.negHalf * ∑ f : Fin 64, (X (ix2 n f) * X (ix2 n f)) * S (ix2 f k))
      + ∑ f : Fin 64, X (ix2 n f) * M (ix2 f k) = _
  simp only [hX, hS, hM, hb]

variable (m : (ℓ : Loc nD τ sig) → Buf (Elt Ideal) ℓ)

/-- The program's result after the host operation that follows the region: the result matrix reshaped. -/
theorem tail_eq (c : Dev nD) :
    Pipeline.afterTail₀ cfgs (dats m) 0 (V0 m) [hostOps1] c main_v24
      = shapeCast S128x16x16x100 (Blocks.scores (V m c main_v0) (V m c main_v19) (V m c main_v21) (V m c main_v22))
          shapeCasts_S32768x100_S128x16x16x100 := by
  unfold Pipeline.afterTail₀
  show StableHlo.after hostOps1 _ (Proc.devRef .tc main_v24) = _
  after_results
  have hw : Pipeline.withArrays (cfgs 0).spec c (V0 m c) (fun w => (dats m 0 c).arrAt w (cfgs 0).N) (Proc.devRef .tc main_v23)
      = Blocks.scores (V m c main_v0) (V m c main_v19) (V m c main_v21) (V m c main_v22) :=
    (Pipeline.withArrays_arr spec0 launch0.win.arr_inj c _ _ 4).trans (Blocks.final m c)
  rw [hw]
  rfl

end Cert.KernelIdeal.Tail

end
-- ==== Proof.HostOperands.lean ====
/-
  The three matrix operands the host prepares before the grid is entered, read entry by entry.

  The features [128, 16, 16, 64] are flattened to a matrix of 32768 rows: row b*256 + h*16 + w is pixel (b, h, w).
  The square-root precisions [1, 1, 1, 100, 64] lose their unit axes, are squared entrywise, and are transposed to
  [64, 100]; the centres are treated likewise after being multiplied by the squared precisions. The final narrowing
  of the float format is the identity on extended reals.
-/
import proofs.«109110_j29996051595916_1_alg».proof.Proof.Gen.KernelIdeal.Frame
import proofs.«109110_j29996051595916_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.ValueIdx Idealize.SL.Sem
open Idealize.ShloMosaic.StableHlo

/-! ## Two flattenings read at an index -/

/-- Dropping the three unit axes of a [1, 1, 1, 100, 64] array: entry (k, f) of the matrix is entry (0, 0, 0, k, f),
    both sitting at row-major position k * 64 + f. -/
private theorem dropUnits_apply (x : S1x1x1x100x64.Idx → EReal) (hc : S1x1x1x100x64.ShapeCasts S100x64)
    (k : Fin 100) (f : Fin 64) :
    shapeCast S100x64 x hc (ix2 k f) = x (ix5 0 0 0 k f) :=
  shapeCast_apply x hc _ _ (by
    rw [Shape.rowMajor_val_five, Shape.rowMajor_val_two]
    show (((0 * 1 + 0) * 1 + 0) * 100 + k.val) * 64 + f.val = k.val * 64 + f.val
    omega)

/-- Flattening the three leading axes of a [128, 16, 16, 64] array: row n = b * 256 + h * 16 + w of the matrix is
    pixel (b, h, w), since ((b * 16 + h) * 16 + w) * 64 + f = n * 64 + f. -/
private theorem flatRows_apply (x : S128x16x16x64.Idx → EReal) (hc : S128x16x16x64.ShapeCasts S32768x64)
    (b : Fin 128) (h w : Fin 16) (n : Fin 32768) (hn : n.val = b.val * 256 + h.val * 16 + w.val) (f : Fin 64) :
    shapeCast S32768x64 x hc (ix2 n f) = x (ix4 b h w f) :=
  shapeCast_apply x hc _ _ (by
    rw [Shape.rowMajor_val_four, Shape.rowMajor_val_two]
    show ((b.val * 16 + h.val) * 16 + w.val) * 64 + f.val = n.val * 64 + f.val
    omega)

variable (m : (ℓ : Loc nD τ sig) → Buf (Elt Ideal) ℓ)

/-- The product of two extended reals. An entry of an argument array is an extended real only once its buffer's element
    type is computed, so the product of two entries is written at the extended reals outright; it is the ordinary
    product and prints as one. -/
local notation:70 a:70 " ⋆ " b:71 => HMul.hMul (α := EReal) (β := EReal) (γ := EReal) a b

/-! ## The three operands as terms of the argument arrays -/

/-- The row matrix is the features flattened. -/
private theorem rows_eq (c : Dev nD) :
    (V m c main_v0 : S32768x64.Idx → EReal)
      = shapeCast S32768x64 (m ((c : Thread nD τ).loc main_arg0) : S128x16x16x64.Idx → EReal)
          shapeCasts_S128x16x16x64_S32768x64 := by
  dsimp only [Gen.V, Gen.V0]
  simp only [Gen.hostOps0, Gen.hostOps0_1, Gen.hostOps0_2, List.flatten_cons, List.flatten_nil, List.append_nil,
    List.cons_append, List.nil_append]
  after_results; rfl

/-- The second operand: the flattened square-root precisions squared, transposed, narrowed. -/
private theorem precT_eq (c : Dev nD) :
    (V m c main_v19 : S64x100.Idx → EReal)
      = truncf (F := Ideal) .bf16
          (transpose S64x100 [1, 0]
            (mulf (F := Ideal)
              (shapeCast S100x64 (m ((c : Thread nD τ).loc main_arg2) : S1x1x1x100x64.Idx → EReal) shapeCasts_S1x1x1x100x64_S100x64)
              (shapeCast S100x64 (m ((c : Thread nD τ).loc main_arg2) : S1x1x1x100x64.Idx → EReal) shapeCasts_S1x1x1x100x64_S100x64))
            transposes_S100x64_S64x100_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results; rfl

/-- The third operand: the flattened centres times the squared precisions, transposed, narrowed. -/
private theorem muPrecT_eq (c : Dev nD) :
    (V m c main_v21 : S64x100.Idx → EReal)
      = truncf (F := Ideal) .bf16
          (transpose S64x100 [1, 0]
            (mulf (F := Ideal)
              (shapeCast S100x64 (m ((c : Thread nD τ).loc main_arg1) : S1x1x1x100x64.Idx → EReal) shapeCasts_S1x1x1x100x64_S100x64)
              (mulf (F := Ideal)
                (shapeCast S100x64 (m ((c : Thread nD τ).loc main_arg2) : S1x1x1x100x64.Idx → EReal) shapeCasts_S1x1x1x100x64_S100x64)
                (shapeCast S100x64 (m ((c : Thread nD τ).loc main_arg2) : S1x1x1x100x64.Idx → EReal) shapeCasts_S1x1x1x100x64_S100x64)))
            transposes_S100x64_S64x100_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results; rfl

/-! ## Read at an index -/

/-- The features flattened to rows: row n = b * 256 + h * 16 + w of the [32768, 64] matrix is pixel (b, h, w). -/
theorem rows_apply (c : Dev nD) (b : Fin 128) (h w : Fin 16) (n : Fin 32768)
    (hn : n.val = b.val * 256 + h.val * 16 + w.val) (f : Fin 64) :
    (V m c main_v0 : S32768x64.Idx → EReal) (ix2 n f)
      = (m ((c : Thread nD τ).loc main_arg0) : S128x16x16x64.Idx → EReal) (ix4 b h w f) :=
  (congrFun (rows_eq m c) (ix2 n f)).trans (flatRows_apply _ _ b h w n hn f)

/-- The squared precisions, transposed to [64, 100]: entry (f, k) is the square of the precision root of
    component k at feature f. -/
theorem precT_apply (c : Dev nD) (f : Fin 64) (k : Fin 100) :
    (V m c main_v19 : S64x100.Idx → EReal) (ix2 f k)
      = (m ((c : Thread nD τ).loc main_arg2) : S1x1x1x100x64.Idx → EReal) (ix5 0 0 0 k f)
          ⋆ (m ((c : Thread nD τ).loc main_arg2) : S1x1x1x100x64.Idx → EReal) (ix5 0 0 0 k f) := by
  rw [precT_eq m c, truncf_apply, transpose_ix2_apply, mulf_apply, dropUnits_apply]

/-- The centres times the squared precisions, transposed to [64, 100]: entry (f, k) is the centre of component k
    at feature f times the square of its precision root there. -/
theorem muPrecT_apply (c : Dev nD) (f : Fin 64) (k : Fin 100) :
    (V m c main_v21 : S64x100.Idx → EReal) (ix2 f k)
      = (m ((c : Thread nD τ).loc main_arg1) : S1x1x1x100x64.Idx → EReal) (ix5 0 0 0 k f)
          ⋆ ((m ((c : Thread nD τ).loc main_arg2) : S1x1x1x100x64.Idx → EReal) (ix5 0 0 0 k f)
              ⋆ (m ((c : Thread nD τ).loc main_arg2) : S1x1x1x100x64.Idx → EReal) (ix5 0 0 0 k f)) := by
  rw [muPrecT_eq m c, truncf_apply, transpose_ix2_apply, mulf_apply, mulf_apply, dropUnits_apply, dropUnits_apply]

end Cert.KernelIdeal.HostValue

end
-- ==== Proof.HostBias.lean ====
/-
  The per-component bias row that the program computes on the host before its region, read at component k.

  The row is built from the three parameter arrays in stages: the centres mu and square-root precisions sg are read as
  100 rows of 64, the weights as a vector of 100; row by row the logarithms of sg and the products mu^2 sg^2 are summed;
  the weights go through a log-softmax (subtract the largest, exponentiate, sum, take the logarithm, subtract); and the
  bias is  (C + sum log sg + log-softmax) - 1/2 * sum mu^2 sg^2,  laid out as one row of 100. Each stage is named
  below and read at an index; the composition at (0, k) is the bias of the split arrangement at component k.
-/
import proofs.«109110_j29996051595916_1_alg».proof.Proof.Gen.KernelIdeal.Frame
import proofs.«109110_j29996051595916_1_alg».proof.Proof.Spec
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws
import Idealize.ShloMosaic.PureOps.Reduce

set_option maxRecDepth 16384

noncomputable section

namespace Cert.KernelIdeal.HostBias

open Cert.KernelIdeal Cert.KernelIdeal.Gen Idealize.ShloMosaic Idealize.ShloMosaic.TcCoe Idealize.ShloMosaic.ValueIdx Idealize.SL.Sem
open Idealize.ShloMosaic.StableHlo
open scoped BigOperators

/-! ## The stages of the bias row, as functions of the three parameter arrays -/

/-- A [1,1,1,100,64] array read as 100 rows of 64. -/
def rows (a : FVec Ideal S1x1x1x100x64 .f32) : FVec Ideal S100x64 .f32 :=
  shapeCast S100x64 a shapeCasts_S1x1x1x100x64_S100x64

/-- A [1,1,1,100] array read as a vector of 100. -/
def vec (p : FVec Ideal S1x1x1x100 .f32) : FVec Ideal S100 .f32 :=
  shapeCast S100 p shapeCasts_S1x1x1x100_S100

/-- The maximum of a vector folded from -infinity, then compared with -infinity once more. -/
def top (v : FVec Ideal S100 .f32) : FVec Ideal S_ .f32 :=
  maximumf (constant (F := Ideal) S_ .f32 0xFF800000#32)
    (Host.reduce FloatOps.maximumf v (constant (F := Ideal) S_ .f32 0xFF800000#32) reducesTo_S100_S_d0 h_S_)

/-- The vector minus its maximum. -/
def shifted (v : FVec Ideal S100 .f32) : FVec Ideal S100 .f32 :=
  subf v (broadcastInDim S100 ![0] bcast_S1_S100_0 (broadcastInDim S1 ![] bcast_S_S1 (top v)))

/-- The sum of the exponentials of the shifted vector. -/
def expSum (v : FVec Ideal S100 .f32) : FVec Ideal S_ .f32 :=
  Host.reduceAdd (Host.exp (shifted v)) (constant (F := Ideal) S_ .f32 0x00000000#32) reducesTo_S100_S_d0 h_S_

/-- The log-softmax of a vector. -/
def logSoftmax (v : FVec Ideal S100 .f32) : FVec Ideal S100 .f32 :=
  subf (shifted v)
    (broadcastInDim S100 ![0] bcast_S1_S100_0 (Host.log (broadcastInDim S1 ![] bcast_S_S1 (expSum v))))

/-- Row by row, the sum of the logarithms. -/
def logRowSum (sg : FVec Ideal S1x1x1x100x64 .f32) : FVec Ideal S100 .f32 :=
  Host.reduceAdd (Host.log (rows sg)) (constant (F := Ideal) S_ .f32 0x00000000#32) reducesTo_S100x64_S100_d1 h_S_

/-- Row by row, the sum of mu^2 sg^2. -/
def sqRowSum (mu sg : FVec Ideal S1x1x1x100x64 .f32) : FVec Ideal S100 .f32 :=
  Host.reduceAdd (mulf (mulf (rows mu) (rows mu)) (mulf (rows sg) (rows sg)))
    (constant (F := Ideal) S_ .f32 0x00000000#32) reducesTo_S100x64_S100_d1 h_S_

/-- The bias as a vector of 100. -/
def biasVec (mu sg : FVec Ideal S1x1x1x100x64 .f32) (p : FVec Ideal S1x1x1x100 .f32) : FVec Ideal S100 .f32 :=
  subf
    (addf (addf (broadcastInDim S100 ![] bcast_S_S100 (constant (F := Ideal) S_ .f32 0xC26B3F8E#32)) (logRowSum sg))
      (logSoftmax (vec p)))
    (mulf (broadcastInDim S100 ![] bcast_S_S100 (constant (F := Ideal) S_ .f32 0x3F000000#32)) (sqRowSum mu sg))

/-- The bias as one row of 100. -/
def biasRow (mu sg : FVec Ideal S1x1x1x100x64 .f32) (p : FVec Ideal S1x1x1x100 .f32) : FVec Ideal S1x100 .f32 :=
  shapeCast S1x100 (biasVec mu sg p) shapeCasts_S100_S1x100

/-! ## The layout operations at an index -/

theorem rows_apply (a : FVec Ideal S1x1x1x100x64 .f32) (k : Fin 100) (c : Fin 64) :
    rows a (ix2 k c) = a (ix5 0 0 0 k c) := by
  unfold rows
  refine shapeCast_apply a _ _ _ ?_
  rw [Shape.rowMajor_val_five, Shape.rowMajor_val_two]
  show ((((0 : ℕ) * 1 + 0) * 1 + 0) * 100 + k.val) * 64 + c.val = k.val * 64 + c.val
  omega

theorem vec_apply (p : FVec Ideal S1x1x1x100 .f32) (j : Fin 100) :
    vec p (ix1 j) = p (ix4 0 0 0 j) := by
  unfold vec
  refine shapeCast_apply p _ _ _ ?_
  rw [Shape.rowMajor_val_four, Shape.rowMajor_val_one]
  show (((0 : ℕ) * 1 + 0) * 1 + 0) * 100 + j.val = j.val
  omega

/-- A one-cell array spread over the vector reads its cell everywhere. -/
theorem spread_apply (y : FVec Ideal S1 .f32) (j : Fin 100) :
    broadcastInDim S100 ![0] bcast_S1_S100_0 y (ix1 j) = y (ix1 (0 : Fin 1)) :=
  broadcastInDim_apply _ bcast_S1_S100_0 y (ix1 j) (ix1 (0 : Fin 1)) (fun a => match a with
    | ⟨0, _⟩ => by show (0 : ℕ) = if (1 : ℕ) = 1 then 0 else j.val; rw [if_pos rfl])

/-- A scalar put in one cell reads the scalar. -/
theorem cell_apply (x : FVec Ideal S_ .f32) (u : Fin 1) :
    broadcastInDim S1 ![] bcast_S_S1 x (ix1 u) = x ix0 :=
  broadcastInDim_scalar_apply bcast_S_S1 x _

/-! ## A row's index with the column put back -/

theorem lift_row (h : S100x64.Reduces [1] S100) (k : Fin 100) (c : Fin (S100x64.size 1)) :
    h.lift (ix1 k) c = ix2 k (⟨c.val, c.isLt⟩ : Fin 64) := by
  funext a; apply Fin.ext
  match a with
  | ⟨0, _⟩ => rfl
  | ⟨1, _⟩ => rfl

/-! ## Folds and sums over a vector's indices are over its coordinate range -/

theorem fold_vec (op : EReal → EReal → EReal) [Std.Commutative op] [Std.Associative op] (b : EReal)
    (f : S100.Idx → EReal) :
    (Finset.univ : Finset S100.Idx).fold op b f = (Finset.univ : Finset (Fin 100)).fold op b (fun j => f (ix1 j)) := by
  rw [← Finset.map_univ_equiv (idxEquiv1 (n := 100)).symm, Finset.fold_map]
  rfl

theorem sum_vec (f : S100.Idx → EReal) : ∑ i : S100.Idx, f i = ∑ j : Fin 100, f (ix1 j) :=
  (Equiv.sum_comp (idxEquiv1 (n := 100)).symm f).symm

/-! ## The log-softmax -/

theorem top_apply (p : FVec Ideal S1x1x1x100 .f32) : top (vec p) ix0 = GmmScore.topWeight p := by
  unfold top GmmScore.topWeight
  rw [maximumf_apply, constant_apply]
  refine congrArg (max _) ?_
  rw [Host.reduce_eq_fold FloatOps.maximumf (vec p) _ reducesTo_S100_S_d0 h_S_,
    Finset.filter_true_of_mem (fun i _ => eq_ix0 _)]
  show (Finset.univ : Finset S100.Idx).fold max GmmScore.negInf (vec p) = _
  rw [fold_vec]
  exact congrArg (fun f => Finset.fold max GmmScore.negInf f (Finset.univ : Finset (Fin 100)))
    (funext fun j => vec_apply p j)

theorem shifted_apply (p : FVec Ideal S1x1x1x100 .f32) (j : Fin 100) :
    shifted (vec p) (ix1 j) = p (ix4 0 0 0 j) - GmmScore.topWeight p := by
  unfold shifted
  rw [subf_apply, spread_apply, cell_apply, top_apply, vec_apply]

theorem expSum_apply (p : FVec Ideal S1x1x1x100 .f32) :
    expSum (vec p) ix0 = GmmScore.zero + ∑ j : Fin 100, Ideal.exp (p (ix4 0 0 0 j) - GmmScore.topWeight p) := by
  unfold expSum
  rw [hostReduceAdd_apply, Ideal.hostReduceAdd_total reducesTo_S100_S_d0 (fun b => b.elim0), sum_vec]
  refine congrArg (GmmScore.zero + ·) (Finset.sum_congr rfl fun j _ => ?_)
  show Ideal.exp (shifted (vec p) (ix1 j)) = _
  rw [shifted_apply]

theorem logSoftmax_apply (p : FVec Ideal S1x1x1x100 .f32) (k : Fin 100) :
    logSoftmax (vec p) (ix1 k) = GmmScore.logWeight p k := by
  unfold logSoftmax GmmScore.logWeight
  rw [subf_apply, shifted_apply, spread_apply]
  show _ - Ideal.log (broadcastInDim S1 ![] bcast_S_S1 (expSum (vec p)) (ix1 (0 : Fin 1))) = _
  rw [cell_apply, expSum_apply]

/-! ## The two row sums -/

theorem logRowSum_apply (sg : FVec Ideal S1x1x1x100x64 .f32) (k : Fin 100) :
    logRowSum sg (ix1 k) = GmmScore.logDet sg k := by
  unfold logRowSum GmmScore.logDet
  rw [hostReduceAdd_apply, Ideal.hostReduceAdd_single reducesTo_S100x64_S100_d1 (by decide)]
  refine congrArg (GmmScore.zero + ·) (Finset.sum_congr rfl fun c _ => ?_)
  rw [lift_row]
  show Ideal.log (rows sg (ix2 k ⟨c.val, c.isLt⟩)) = _
  rw [rows_apply]
  rfl

theorem sqRowSum_apply (mu sg : FVec Ideal S1x1x1x100x64 .f32) (k : Fin 100) :
    sqRowSum mu sg (ix1 k)
      = GmmScore.zero + ∑ c : Fin 64, (mu (ix5 0 0 0 k c) * mu (ix5 0 0 0 k c)) * (sg (ix5 0 0 0 k c) * sg (ix5 0 0 0 k c)) := by
  unfold sqRowSum
  rw [hostReduceAdd_apply, Ideal.hostReduceAdd_single reducesTo_S100x64_S100_d1 (by decide)]
  refine congrArg (GmmScore.zero + ·) (Finset.sum_congr rfl fun c _ => ?_)
  rw [lift_row, mulf_apply, mulf_apply, mulf_apply, rows_apply, rows_apply]
  rfl

/-! ## The bias -/

theorem biasRow_apply (mu sg : FVec Ideal S1x1x1x100x64 .f32) (p : FVec Ideal S1x1x1x100 .f32) (k : Fin 100) :
    biasRow mu sg p (ix2 (0 : Fin 1) k) = GmmScore.kerBias mu sg p k := by
  unfold biasRow
  rw [shapeCast_a_1a_apply]
  unfold biasVec GmmScore.kerBias
  rw [subf_apply, addf_apply, addf_apply, mulf_apply, broadcastInDim_scalar_apply, broadcastInDim_scalar_apply,
    logRowSum_apply, logSoftmax_apply, sqRowSum_apply]
  rfl

variable (m : (ℓ : Loc nD τ sig) → Buf (Elt Ideal) ℓ)

set_option maxHeartbeats 1000000 in
/-- The bias row as the region finds it is the composition of the stages above, applied to the three parameter arrays
    as launched. -/
theorem V_bias (c : Dev nD) :
    @Eq (S1x100.Idx → EReal) (V m c main_v22)
      (biasRow (m ((c : Thread nD τ).loc main_arg1)) (m ((c : Thread nD τ).loc main_arg2)) (m ((c : Thread nD τ).loc main_arg3))) := by
  dsimp only [Gen.V, Gen.V0]
  simp only [Gen.hostOps0, Gen.hostOps0_1, Gen.hostOps0_2, List.flatten_cons, List.flatten_nil, List.append_nil, List.cons_append, List.nil_append]
  after_results_simp
  simp only [TRef.ofBuf, TRef.toBuf, cast_eq]
  rfl

/-- At component k the bias row the region finds is the bias of the split arrangement, of the three parameter arrays
    as launched. -/
theorem bias_apply (c : Dev nD) (k : Fin 100) :
    (V m c main_v22 : S1x100.Idx → EReal) (ix2 (0 : Fin 1) k)
      = GmmScore.kerBias (m ((c : Thread nD τ).loc main_arg1)) (m ((c : Thread nD τ).loc main_arg2))
          (m ((c : Thread nD τ).loc main_arg3)) k :=
  (congrFun (V_bias m c) (ix2 (0 : Fin 1) k)).trans (biasRow_apply _ _ _ k)

end Cert.KernelIdeal.HostBias

end
-- ==== Proof.KernelRun.lean ====
/-
  The kernel program's result, entry by entry.

  Reading the four operand arrays of the region back to the program's arguments (the flattened features, the two
  transposed [64, 100] operands, the bias row) turns the reshaped result matrix into the split arrangement of the score
  at pixel (b, h, w) and component k; the program's run ends with its result at that function and its arguments unchanged.
-/
import proofs.«109110_j29996051595916_1_alg».proof.Proof.Tail
import proofs.«109110_j29996051595916_1_alg».proof.Proof.HostOperands
import proofs.«109110_j29996051595916_1_alg».proof.Proof.HostBias

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Entry (b, h, w, k) of the reshaped result matrix is the split arrangement of the score. -/
theorem score_apply (c : Dev nD) (b : Fin 128) (h w : Fin 16) (k : Fin 100) :
    shapeCast S128x16x16x100 (Blocks.scores (V m c main_v0) (V m c main_v19) (V m c main_v21) (V m c main_v22))
        shapeCasts_S32768x100_S128x16x16x100 (ix4 b h w k)
      = GmmScore.kerScore (m ((c : Thread nD τ).loc main_arg0)) (m ((c : Thread nD τ).loc main_arg1))
          (m ((c : Thread nD τ).loc main_arg2)) (m ((c : Thread nD τ).loc main_arg3)) b h w k := by
  have hlt : b.val * 256 + h.val * 16 + w.val < 32768 := by
    have := b.isLt; have := h.isLt; have := w.isLt; omega
  obtain ⟨n, hn⟩ : ∃ n : Fin 32768, n.val = b.val * 256 + h.val * 16 + w.val := ⟨⟨_, hlt⟩, rfl⟩
  rw [Tail.splitRows_apply _ b h w k n hn]
  exact Tail.scores_apply _ _ _ _ _ _ _ _ b h w k n (fun f => HostValue.rows_apply m c b h w n hn f)
    (fun f => HostValue.precT_apply m c f k) (fun f => HostValue.muPrecT_apply m c f k) (HostBias.bias_apply m c k)

/-- Every weakly fair execution of the kernel program terminates with its result at the split arrangement of the
    score, entry by entry, and its four arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v24)
          = (fun i : S128x16x16x100.Idx => GmmScore.kerScore (m ((c.tc : Thread nD τ).loc main_arg0))
              (m ((c.tc : Thread nD τ).loc main_arg1)) (m ((c.tc : Thread nD τ).loc main_arg2))
              (m ((c.tc : Thread nD τ).loc main_arg3)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v24 (Pipeline.mem_restRefs_of main_v24 (by decide) (by decide))).trans
        ((Tail.tail_eq m c).trans (funext fun i =>
          (congrArg (shapeCast S128x16x16x100 (Blocks.scores (V m c main_v0) (V m c main_v19) (V m c main_v21) (V m c main_v22))
            shapeCasts_S32768x100_S128x16x16x100) (eq_ix4 i)).trans (score_apply m c (i 0) (i 1) (i 2) (i 3)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefSide.lean ====
/-
  The reference program, read one element at a time, is the direct arrangement of the mixture score.

  Every stage of the reference writes an element that depends on one element of each operand (a broadcast, a
  difference, a product, an exponential, a logarithm) or on a whole axis of one operand (three sums and one maximum).
  Reading the stages from the result inwards and naming the indices by their coordinates gives, at pixel (b, h, w) and
  component k, exactly

      ((C + sum_c log sg_kc) + (-1/2) * (0 + sum_c (x_c - mu_kc)^2 * sg_kc^2)) + log-softmax(weights)_k .

  The only stage that is a fold rather than a sum is the maximum of the hundred weights, taken from -infinity.
-/
import proofs.«109110_j29996051595916_1_alg».proof.Proof.Gen.ReferenceIdeal.Read
import proofs.«109110_j29996051595916_1_alg».proof.Proof.Spec
import Idealize.ShloMosaic.Lib.ValueIdx
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The weights: their maximum, the shifted weights, the logarithm of the sum of exponentials -/

/-- The maximum over the hundred weights, folded from -infinity: the reduced index has three unit coordinates, so the
    index it is lifted to, with component j put back on the last axis, is (0, 0, 0, j). -/
theorem maxStage (x3 : (⟨S1x1x1x100, .f32⟩ : BufTy).Contents (Elt Ideal)) (j : S1x1x1.Idx) :
    val_main_call0_v0 (F := Ideal) x3 j
      = (Finset.univ : Finset (Fin 100)).fold max GmmScore.negInf (fun k => x3 (ix4 0 0 0 k)) := by
  have h : S1x1x1x100.Reduces [3] S1x1x1 := by decide
  unfold val_main_call0_v0
  refine (Host.reduce_eq_fold_single (α := Ideal .f32) (s := S1x1x1x100) (t := S1x1x1) (a := 3)
    (FloatOps.maximumf (F := Ideal) (φ := .f32)) x3 (val_main_call0_cst (F := Ideal))
    reducesTo_S1x1x1x100_S1x1x1_d3 h h_S_ j).trans ?_
  have hf : (x3 ∘ h.lift j) = fun k : Fin 100 => x3 (ix4 0 0 0 k) :=
    funext fun k => congrArg x3 (funext fun a => Fin.ext (by
      match a with
      | ⟨0, _⟩ => exact Fin.val_eq_zero (j 0)
      | ⟨1, _⟩ => exact Fin.val_eq_zero (j 1)
      | ⟨2, _⟩ => exact Fin.val_eq_zero (j 2)
      | ⟨3, _⟩ => rfl))
  exact congrArg (fun f => Finset.fold max GmmScore.negInf f (Finset.univ : Finset (Fin 100))) hf

/-- Compared once more with -infinity, that maximum is the top weight, whatever the index it is read at. -/
theorem top (x3 : (⟨S1x1x1x100, .f32⟩ : BufTy).Contents (Elt Ideal)) (j : S1x1x1.Idx) :
    val_main_call0_v2 (F := Ideal) x3 j = GmmScore.topWeight x3 := by
  rw [val_main_call0_v2_apply, val_main_call0_v1_apply, val_main_call0_cst_0_apply, maxStage]
  rfl

/-- A weight minus the top weight (the top weight broadcast back over the components). -/
theorem shifted (x3 : (⟨S1x1x1x100, .f32⟩ : BufTy).Contents (Elt Ideal)) (j : S1x1x1x100.Idx) :
    val_main_call0_v5 (F := Ideal) x3 j = x3 j - GmmScore.topWeight x3 := by
  rw [val_main_call0_v5_apply, val_main_call0_v4_apply, val_main_call0_v3_apply, top]
  rfl

/-- The logarithm of the sum, from zero, of the exponentials of the shifted weights. -/
theorem logSumExp (x3 : (⟨S1x1x1x100, .f32⟩ : BufTy).Contents (Elt Ideal)) (j : S1x1x1x1.Idx) :
    val_main_call0_v9 (F := Ideal) x3 j
      = Ideal.log (GmmScore.zero + ∑ k : Fin 100, Ideal.exp (x3 (ix4 0 0 0 k) - GmmScore.topWeight x3)) := by
  rw [val_main_call0_v9_apply, val_main_call0_v8_apply, val_main_call0_v7_apply]
  simp only [val_main_call0_v6_apply, shifted, val_main_call0_cst_1_apply]
  have hidx : ∀ k : Fin 100, idx_main_call0_v7 (idx_main_call0_v8 j) k = ix4 0 0 0 k := fun k =>
    funext fun a => Fin.ext (by
      match a with
      | ⟨0, _⟩ => rfl
      | ⟨1, _⟩ => rfl
      | ⟨2, _⟩ => rfl
      | ⟨3, _⟩ => rfl)
  simp only [hidx]
  rfl

/-- The log-softmax of the weights at component k. -/
theorem logWeightStage (x3 : (⟨S1x1x1x100, .f32⟩ : BufTy).Contents (Elt Ideal)) (k : Fin 100) :
    val_main_v0 (F := Ideal) x3 (ix4 0 0 0 k) = GmmScore.logWeight x3 k := by
  rw [val_main_v0_apply, shifted, val_main_call0_v10_apply, logSumExp]
  rfl

/-! ## The sum of the logarithms of the square-root precisions, with the additive constant -/

theorem logDetStage (x2 : (⟨S1x1x1x100x64, .f32⟩ : BufTy).Contents (Elt Ideal)) (k : Fin 100) :
    val_main_v15 (F := Ideal) x2 (ix4 0 0 0 k) = GmmScore.cst + GmmScore.logDet x2 k := by
  rw [val_main_v15_apply, val_main_v14_apply, val_main_cst_2_apply, val_main_v13_apply]
  simp only [val_main_v12_apply, val_main_cst_1_apply]
  have hidx : ∀ c : Fin 64, idx_main_v13 (ix4 0 0 0 k) c = ix5 0 0 0 k c := fun c =>
    funext fun a => Fin.ext (by
      match a with
      | ⟨0, _⟩ => rfl
      | ⟨1, _⟩ => rfl
      | ⟨2, _⟩ => rfl
      | ⟨3, _⟩ => rfl
      | ⟨4, _⟩ => rfl)
  simp only [hidx]
  rfl

/-! ## The squared distance, weighted by the precisions, summed over the features -/

theorem distStage (x0 : (⟨S128x16x16x64, .f32⟩ : BufTy).Contents (Elt Ideal))
    (x1 x2 : (⟨S1x1x1x100x64, .f32⟩ : BufTy).Contents (Elt Ideal)) (b : Fin 128) (h w : Fin 16) (k : Fin 100) :
    val_main_v9 (F := Ideal) x0 x1 x2 (ix4 b h w k)
      = GmmScore.zero + ∑ c : Fin 64, ((x0 (ix4 b h w c) - x1 (ix5 0 0 0 k c)) * (x0 (ix4 b h w c) - x1 (ix5 0 0 0 k c)))
          * (x2 (ix5 0 0 0 k c) * x2 (ix5 0 0 0 k c)) := by
  rw [val_main_v9_apply]
  simp only [val_main_v8_apply, val_main_v5_apply, val_main_v4_apply, val_main_v2_apply, val_main_v1_apply,
    val_main_v3_apply, val_main_v7_apply, val_main_v6_apply, val_main_cst_apply]
  have h0 : ∀ c : Fin 64, idx_main_v1 (idx_main_v2 (idx_main_v9 (ix4 b h w k) c)) = ix4 b h w c := fun c =>
    funext fun a => Fin.ext (by
      match a with
      | ⟨0, _⟩ => rfl
      | ⟨1, _⟩ => rfl
      | ⟨2, _⟩ => rfl
      | ⟨3, _⟩ => rfl)
  have h1 : ∀ c : Fin 64, idx_main_v3 (idx_main_v9 (ix4 b h w k) c) = ix5 0 0 0 k c := fun c =>
    funext fun a => Fin.ext (by
      match a with
      | ⟨0, _⟩ => rfl
      | ⟨1, _⟩ => rfl
      | ⟨2, _⟩ => rfl
      | ⟨3, _⟩ => rfl
      | ⟨4, _⟩ => rfl)
  have h2 : ∀ c : Fin 64, idx_main_v7 (idx_main_v9 (ix4 b h w k) c) = ix5 0 0 0 k c := fun c =>
    funext fun a => Fin.ext (by
      match a with
      | ⟨0, _⟩ => rfl
      | ⟨1, _⟩ => rfl
      | ⟨2, _⟩ => rfl
      | ⟨3, _⟩ => rfl
      | ⟨4, _⟩ => rfl)
  simp only [h0, h1, h2]
  rfl

/-! ## The score -/

/-- At pixel (b, h, w) and component k the reference's result is the direct arrangement of the score. -/
theorem ref_eq_ix (x0 : (⟨S128x16x16x64, .f32⟩ : BufTy).Contents (Elt Ideal))
    (x1 x2 : (⟨S1x1x1x100x64, .f32⟩ : BufTy).Contents (Elt Ideal)) (x3 : (⟨S1x1x1x100, .f32⟩ : BufTy).Contents (Elt Ideal))
    (b : Fin 128) (h w : Fin 16) (k : Fin 100) :
    val_main_v19 (F := Ideal) x0 x1 x2 x3 (ix4 b h w k) = GmmScore.refScore x0 x1 x2 x3 b h w k := by
  have h16 : idx_main_v16 (ix4 b h w k) = ix4 0 0 0 k :=
    funext fun a => Fin.ext (by
      match a with
      | ⟨0, _⟩ => rfl
      | ⟨1, _⟩ => rfl
      | ⟨2, _⟩ => rfl
      | ⟨3, _⟩ => rfl)
  have h18 : idx_main_v18 (ix4 b h w k) = ix4 0 0 0 k :=
    funext fun a => Fin.ext (by
      match a with
      | ⟨0, _⟩ => rfl
      | ⟨1, _⟩ => rfl
      | ⟨2, _⟩ => rfl
      | ⟨3, _⟩ => rfl)
  rw [val_main_v19_apply, val_main_v17_apply, val_main_v16_apply, val_main_v11_apply, val_main_v10_apply,
    val_main_cst_0_apply, val_main_v18_apply, distStage, h16, h18, logDetStage, logWeightStage]
  rfl

/-- The same at any index, an index being its four coordinates. -/
theorem ref_eq (x0 : (⟨S128x16x16x64, .f32⟩ : BufTy).Contents (Elt Ideal))
    (x1 x2 : (⟨S1x1x1x100x64, .f32⟩ : BufTy).Contents (Elt Ideal)) (x3 : (⟨S1x1x1x100, .f32⟩ : BufTy).Contents (Elt Ideal))
    (i : S128x16x16x100.Idx) :
    Cert.ReferenceIdeal.Read.val_main_v19 (F := Ideal) x0 x1 x2 x3 i
      = GmmScore.refScore x0 x1 x2 x3 (i 0) (i 1) (i 2) (i 3) :=
  (congrArg (val_main_v19 (F := Ideal) x0 x1 x2 x3) (eq_ix4 i)).trans (ref_eq_ix x0 x1 x2 x3 (i 0) (i 1) (i 2) (i 3))

end Cert.ReferenceIdeal.RefValue

end
-- ==== Proof.Finite.lean ====
/-
  The precondition of the certificate is a predicate of the four argument arrays: for each of the four argument arrays, the conjunction over
  every entry a of the test |a| < +infinity, and then the conjunction of the four results; it is assumed to come out true.
  Read over the extended reals, |a| is max a (-a) and +infinity is the top element, so the test at an entry says that the
  entry is neither top nor bottom: it is a real number. This file reads that consequence off for the features, the centres
  and the square-root precisions (the weights are not needed).

  The steps: a conjunction of two one-bit words is 1 exactly when both are; a conjunction over all the axes of an array
  that came out 1 had a 1 at every index; and the word 0x7F800000 denotes the top element.
-/
import proofs.«109110_j29996051595916_1_alg».proof.Defs
import proofs.«109110_j29996051595916_1_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- An array without axes has exactly one index. -/
instance : Subsingleton Cert.Pre_finite_inputs.S_.Idx := ⟨fun a b => funext fun d => d.elim0⟩

/-- The float +infinity is the top extended real. -/
theorem inf_eq_top : Ideal.ofBits .f32 0x7F800000#32 = (⊤ : EReal) := by
  simp [Ideal.ofBits, Ideal.ieee]

/-- An extended real whose absolute value max x (-x) is strictly below +infinity is a real number: at the top element
    the maximum is the top, at the bottom element the negation is the top, and top < top is false. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- The same at an index of an array of any shape: the test of the predicate, |x| compared with the scalar
    +infinity spread over the shape, being 1 at index i, makes x i a real number. -/
theorem real_of_test {T : Shape} (hb : Cert.Pre_finite_inputs.S_.BroadcastsInDim T ![]) (x : FVec Ideal T .f32) (i : T.Idx)
    (h : cmpf .olt (Host.absf x)
        (broadcastInDim T ![] hb (constant (F := Ideal) Cert.Pre_finite_inputs.S_ .f32 0x7F800000#32)) i = 1#1) :
    ∃ r : ℝ, x i = (r : EReal) :=
  real_of_abs_lt (x i) h

/-- under the precondition every entry of the features, the centres and the square-root precisions is a real number -/
theorem real_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
      (∀ i, ∃ r : ℝ, (m ((c.tc : Thread Cert.KernelIdeal.nD Cert.KernelIdeal.τ).loc Cert.KernelIdeal.main_arg0) : Cert.KernelIdeal.S128x16x16x64.Idx → EReal) i = (r : EReal))
      ∧ (∀ i, ∃ r : ℝ, (m ((c.tc : Thread Cert.KernelIdeal.nD Cert.KernelIdeal.τ).loc Cert.KernelIdeal.main_arg1) : Cert.KernelIdeal.S1x1x1x100x64.Idx → EReal) i = (r : EReal))
      ∧ (∀ i, ∃ r : ℝ, (m ((c.tc : Thread Cert.KernelIdeal.nD Cert.KernelIdeal.τ).loc Cert.KernelIdeal.main_arg2) : Cert.KernelIdeal.S1x1x1x100x64.Idx → EReal) i = (r : EReal)) := by
  -- the predicate's one result word, at its one index, is 1
  have e := congrFun (h c) ValueIdx.ix0
  dsimp only [Cert.Pre_finite_inputs.fn, Cert.Pre_finite_inputs.fn_part1] at e
  -- it is ((all x ∧ all mu) ∧ all sg) ∧ all weights: take the first three
  obtain ⟨e012, -⟩ := IntOp.andi_eq_one.1 e
  obtain ⟨e01, e2⟩ := IntOp.andi_eq_one.1 e012
  obtain ⟨e0, e1⟩ := IntOp.andi_eq_one.1 e01
  -- each is a conjunction over all axes, so the test holds at every index, and the test makes the entry real
  refine ⟨fun i => ?_, fun i => ?_, fun i => ?_⟩
  · exact real_of_test _ _ i (Host.reduce_andi_all _ _ _ _ _ e0 i)
  · exact real_of_test _ _ i (Host.reduce_andi_all _ _ _ _ _ e1 i)
  · exact real_of_test _ _ i (Host.reduce_andi_all _ _ _ _ _ e2 i)

end Cert.Proof.Finite

end
-- ==== Proof.lean ====
/-
  The score of a diagonal Gaussian mixture layer: a tiled kernel against its whole-array definition.

  For 32768 pixels with 64 features each and 100 components with centres mu, square-root precisions sg and unnormalised
  weights, both programs compute, at pixel (b, h, w) and component k,

      C + sum_c log sg_kc  -  1/2 * sum_c (x_c - mu_kc)^2 * sg_kc^2  +  log-softmax(weights)_k .

  The whole-array program sums the squared distance as written. The kernel program expands the square,
  (x - mu)^2 s^2 = x^2 s^2 - 2 x (mu s^2) + mu^2 s^2: its host part prepares the squared precisions and the centres times
  the squared precisions, transposed to [64, 100], and a bias row holding everything that does not depend on the pixel;
  its grid of 8 points multiplies blocks of 4096 feature rows (and their squares) by the two operands and adds the
  bias; a final reshape restores the pixel axes. Read over the extended reals, with every float operation exact, the
  two results agree entry by entry once the features, centres and square-root precisions are finite, which the
  precondition says: the expansion is a distributive law, and the rest is commuting and re-associating sums. The
  weights need no finiteness; their log-softmax, the constant and the sums of logarithms are the same extended real on
  both sides.

  The pieces: Spec (the two arrangements and the law between them), Payload and Blocks (the kernel body at an index;
  the result matrix after the grid), HostOperands and HostBias (what the host part prepares), Tail and KernelRun (the
  final reshape; the kernel program's run), RefSide (the whole-array program at an index), Finite (the precondition).
  The idealized kernel is the kernel's own text read over the extended reals, so there is nothing to preserve.
-/
import proofs.«109110_j29996051595916_1_alg».proof.Defs
import proofs.«109110_j29996051595916_1_alg».proof.Proof.Gen.Kernel
import proofs.«109110_j29996051595916_1_alg».proof.Proof.Gen.Kernel.Skeleton
import proofs.«109110_j29996051595916_1_alg».proof.Proof.Gen.Kernel.Launch
import proofs.«109110_j29996051595916_1_alg».proof.Proof.Gen.Kernel.Points
import proofs.«109110_j29996051595916_1_alg».proof.Proof.Gen.Kernel.Frame
import proofs.«109110_j29996051595916_1_alg».proof.Proof.Gen.KernelIdeal
import proofs.«109110_j29996051595916_1_alg».proof.Proof.Gen.KernelIdeal.Skeleton
import proofs.«109110_j29996051595916_1_alg».proof.Proof.Gen.KernelIdeal.Launch
import proofs.«109110_j29996051595916_1_alg».proof.Proof.Gen.KernelIdeal.Points
import proofs.«109110_j29996051595916_1_alg».proof.Proof.Gen.KernelIdeal.Frame
import proofs.«109110_j29996051595916_1_alg».proof.Proof.Gen.ReferenceIdeal
import proofs.«109110_j29996051595916_1_alg».proof.Proof.Gen.Pre_finite_inputs
import proofs.«109110_j29996051595916_1_alg».proof.Proof.Gen.ReferenceIdeal.Run
import proofs.«109110_j29996051595916_1_alg».proof.Proof.Gen.ReferenceIdeal.Read
import proofs.«109110_j29996051595916_1_alg».proof.Proof.Spec
import proofs.«109110_j29996051595916_1_alg».proof.Proof.KernelRun
import proofs.«109110_j29996051595916_1_alg».proof.Proof.RefSide
import proofs.«109110_j29996051595916_1_alg».proof.Proof.Finite
import Idealize.ShloMosaic.Adequacy
import Idealize.ShloMosaic.Init

noncomputable section

namespace Cert.Proof

open Idealize.ShloMosaic Idealize.SL.Sem

/-- The kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The whole-array program runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the four arguments both programs end with the direct arrangement of the score in their
    result: the kernel program's split arrangement equals it on finite entries, and the whole-array program computes
    it as written. -/
theorem algebraic : Cert.algebraic_KernelIdeal_ReferenceIdeal := by
  intro m ρ m' ρ' hpre hagree
  have hk : θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v24)
            = (fun i : Cert.KernelIdeal.S128x16x16x100.Idx => GmmScore.refScore
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)) (i 0) (i 1) (i 2) (i 3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
    refine (θ_run Cert.KernelIdeal.defs _ _).mono (fun r h c => ⟨(h c).1.trans (funext fun i => ?_), (h c).2⟩)
      (Cert.KernelIdeal.KernelValue.run m ρ)
    obtain ⟨hx, hmu, hsg⟩ := Cert.Proof.Finite.real_of_pre m hpre c
    exact GmmScore.kerScore_eq_refScore _ _ _ _ hx hmu hsg _ _ _ _
  refine ⟨_, hk, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact funext fun i => Cert.ReferenceIdeal.RefValue.ref_eq _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
